-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S4096x1 : Shape := ⟨2, ![4096, 1]⟩
abbrev S256x256 : Shape := ⟨2, ![256, 256]⟩
abbrev S256 : Shape := ⟨1, ![256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x1 : S_.BroadcastsInDim S4096x1 (![] : Fin 0 → Fin S4096x1.rank)
  reducesTo_S4096x1_S_d0_1 : S4096x1.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S4096x256 .f32) (main_arg1 : FVec F S4096x4096 .f32) (main_arg2 : FVec F S4096x1 .f32) (main_arg3 : FVec F S256x256 .f32) (main_arg4 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x1 .f32 := Host.absf main_arg2
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S4096x256 : Shape := ⟨2, ![4096, 256]⟩
abbrev S4096x4096 : Shape := ⟨2, ![4096, 4096]⟩
abbrev S4096x1 : Shape := ⟨2, ![4096, 1]⟩
abbrev S256x256 : Shape := ⟨2, ![256, 256]⟩
abbrev S256 : Shape := ⟨1, ![256]⟩
abbrev S1x256 : Shape := ⟨2, ![1, 256]⟩
abbrev S512x2048 : Shape := ⟨2, ![512, 2048]⟩
abbrev S512x1 : Shape := ⟨2, ![512, 1]⟩
abbrev S512x256 : Shape := ⟨2, ![512, 256]⟩
abbrev S2048x256 : Shape := ⟨2, ![2048, 256]⟩

abbrev nBuf : Space → Nat
  | .hbm => 7
  | .vmem => 11
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S4096x1, .f32⟩
  | .hbm, ⟨3, _⟩ => ⟨S256x256, .f32⟩
  | .hbm, ⟨4, _⟩ => ⟨S256, .f32⟩
  | .hbm, ⟨5, _⟩ => ⟨S1x256, .f32⟩
  | .hbm, ⟨6, _⟩ => ⟨S4096x256, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S4096x256, .f32⟩
  | .local _ .vmem, ⟨5, _⟩ => ⟨S512x1, .f32⟩
  | .local _ .vmem, ⟨6, _⟩ => ⟨S512x1, .f32⟩
  | .local _ .vmem, ⟨7, _⟩ => ⟨S256x256, .f32⟩
  | .local _ .vmem, ⟨8, _⟩ => ⟨S1x256, .f32⟩
  | .local _ .vmem, ⟨9, _⟩ => ⟨S512x256, .f32⟩
  | .local _ .vmem, ⟨10, _⟩ => ⟨S512x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c512_i32 : BitVec 32 := 512#32
  let v7 : BitVec 32 := Scalar.muli arg0 c512_i32
  let v8 : Index := Scalar.indexCast v7
  let c0_7 : Index := 0#32
  ![v8.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S256_S1x256 : S256.ShapeCasts S1x256
  inb_S512x2048_S512x2048_0_0 : ∀ a, (![0, 0] : Fin 2 → Nat) a + S512x2048.size a ≤ S512x2048.size a
  h_S512x2048 : 0 < S512x2048.numel
  inb_S4096x256_S2048x256_0_0 : ∀ a, (![0, 0] : Fin 2 → Nat) a + S2048x256.size a ≤ S4096x256.size a
  h_S2048x256 : 0 < S2048x256.numel
  inb_S4096x256_S2048x256_2048_0 : ∀ a, (![2048, 0] : Fin 2 → Nat) a + S2048x256.size a ≤ S4096x256.size a
  h_S512x256 : 0 < S512x256.numel
  inb_S256x256_S256x256_0_0 : ∀ a, (![0, 0] : Fin 2 → Nat) a + S256x256.size a ≤ S256x256.size a
  h_S256x256 : 0 < S256x256.numel
  inb_S512x1_S512x1_0_0 : ∀ a, (![0, 0] : Fin 2 → Nat) a + S512x1.size a ≤ S512x1.size a
  h_S512x1 : 0 < S512x1.numel
  broadcasts_S512x1_S512x256 : S512x1.Broadcasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  dot_S512x2048_S2048x256_S512x256_1_0_0_1_n_n_wf : DotDims.WF S512x2048 S2048x256 S512x256 [1] [0] [0] [1] [] []
  dot_S512x256_S256x256_S512x256_1_0_0_1_n_n_wf : DotDims.WF S512x256 S256x256 S512x256 [1] [0] [0] [1] [] []
  hrank0 : 0 < grid0.rank
  k0_off1_inb : ∀ i : grid0.Coords, ∀ a, (k0_off1 i) a + S512x256.size a ≤ S4096x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x4096.size a
  hwx0_0 : ∀ i : grid0.Coords, EltTy.bits .f32 = 32 ∨ (Rect.block (s := S4096x4096) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x4096.size a
  hwx0_1 : ∀ i : grid0.Coords, EltTy.bits .f32 = 32 ∨ (Rect.block (s := S4096x4096) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x256.size a
  hwx0_2 : ∀ i : grid0.Coords, EltTy.bits .f32 = 32 ∨ (Rect.block (s := S4096x256) S4096x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S4096x256.size a
  hwx0_6 : ∀ i : grid0.Coords, EltTy.bits .f32 = 32 ∨ (Rect.block (s := S4096x256) S512x256.size (cc0_transform_6 i) (hinb0_6 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4096x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S512x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S4096x1 : Shape := ⟨2, ![4096, 1]⟩
abbrev S256x256 : Shape := ⟨2, ![256, 256]⟩
abbrev S256 : Shape := ⟨1, ![256]⟩
abbrev S1x256 : Shape := ⟨2, ![1, 256]⟩

abbrev nBuf : Space → Nat
  | .hbm => 13
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S4096x1, .f32⟩
  | .hbm, ⟨3, _⟩ => ⟨S256x256, .f32⟩
  | .hbm, ⟨4, _⟩ => ⟨S256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S1x256, .f32⟩
  | .hbm, ⟨11, _⟩ => ⟨S4096x256, .f32⟩
  | .hbm, ⟨12, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S4096x1_S4096x256_0_1 : S4096x1.BroadcastsInDim S4096x256 (![0, 1] : Fin 2 → Fin S4096x256.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  dot_S4096x4096_S4096x256_S4096x256_1_0_0_1_n_n_wf : DotDims.WF S4096x4096 S4096x256 S4096x256 [1] [0] [0] [1] [] []
  dot_S4096x256_S256x256_S4096x256_1_0_0_1_n_n_wf : DotDims.WF S4096x256 S256x256 S4096x256 [1] [0] [0] [1] [] []

variable [Facts₀]

def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

class Facts : Prop extends Facts₀ where

variable [Facts]
-- ==== Proof.KBody.lean ====
/-
  The kernel body on its seven staging buffers. The body loads the two column halves of a row strip of the adjacency
  matrix, the two row halves of the feature matrix and its row strip at the grid point, the weights, the strip's degrees and
  the bias, and stores ONE block: the payload of those eight loaded values. So after the body the output's buffer holds that
  payload, whole, and every input's buffer is as it was.
-/
import proofs.«163437_g78726750535692_cont_9to1_m_447_9_alg».proof.Proof.Gen.Kernel.Launch
import proofs.«163437_g78726750535692_cont_9to1_m_447_9_alg».proof.Proof.Gen.Kernel.Skeleton
import proofs.«163437_g78726750535692_cont_9to1_m_447_9_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

/-- A whole strip half of the adjacency matrix (512 rows, 2048 columns). -/
abbrev rAdj : Rect S512x2048 := Rect.unit (s := S512x2048) ![0, 0] S512x2048.size inb_S512x2048_S512x2048_0_0
/-- Rows 0 … 2047 of the feature matrix. -/
abbrev rXlo : Rect S4096x256 := Rect.unit (s := S4096x256) ![0, 0] S2048x256.size inb_S4096x256_S2048x256_0_0
/-- Rows 2048 … 4095 of the feature matrix. -/
abbrev rXhi : Rect S4096x256 := Rect.unit (s := S4096x256) ![2048, 0] S2048x256.size inb_S4096x256_S2048x256_2048_0
/-- The 512 rows of the feature matrix that the grid point's strip adds back. -/
abbrev rXat (i : grid0.Coords) : Rect S4096x256 := Rect.unit (s := S4096x256) (k0_off1 i) S512x256.size (k0_off1_inb i)
abbrev rW : Rect S256x256 := Rect.unit (s := S256x256) ![0, 0] S256x256.size inb_S256x256_S256x256_0_0
abbrev rDeg : Rect S512x1 := Rect.unit (s := S512x1) ![0, 0] S512x1.size inb_S512x1_S512x1_0_0
abbrev rB : Rect S1x256 := Rect.unit (s := S1x256) ![0, 0] S1x256.size inb_S1x256_S1x256_0_0
abbrev rOut : Rect S512x256 := Rect.unit (s := S512x256) ![0, 0] S512x256.size inb_S512x256_S512x256_0_0

/-! ## What the body leaves in the output's buffer -/

/-- The output block at grid coordinates `i`, from the contents of the six input buffers: the one store's payload. -/
def outBlk (i : grid0.Coords) (aL aR : Vec F S512x2048 .f32) (x : Vec F S4096x256 .f32) (dg : Vec F S512x1 .f32)
    (w : Vec F S256x256 .f32) (b : Vec F S1x256 .f32) : Vec F S512x256 .f32 :=
  View.canon [⟨rOut, k0_pay1 (View.ld aL rAdj) (View.ld x rXlo) (View.ld aR rAdj) (View.ld x rXhi) (View.ld x (rXat i))
    (View.ld w rW) (View.ld dg rDeg) (View.ld b rB)⟩]

/-- The one store covers the output's buffer. -/
theorem cover_out (p0 : Vec F S512x256 .f32) (y : S512x256.Idx) :
    ∃ pc ∈ ([⟨rOut, p0⟩] : List (View.Piece (Elt F) S512x256 .f32)), y ∈ pc.1.set :=
  View.cover_of_tiled [⟨rOut, p0⟩] S512x256.size (by rfl) y

/-! ## The body's triple -/

set_option maxHeartbeats 1000000 in
/-- The body on whole staging memrefs, the inputs' at read contents and the output's at anything, runs to the continuation
    holding the inputs' as they were and the output's at `outBlk` of the inputs'. -/
theorem sound_kernel (c : Dev nD) (E : Set ℕ) (i : grid0.Coords)
    (arg1 : Memref sig .tc .vmem S512x2048 .f32) (harg1 : arg1.IsWhole) (arg2 : Memref sig .tc .vmem S512x2048 .f32) (harg2 : arg2.IsWhole)
    (arg3 : Memref sig .tc .vmem S4096x256 .f32) (harg3 : arg3.IsWhole) (arg4 : Memref sig .tc .vmem S512x1 .f32) (harg4 : arg4.IsWhole)
    (arg5 : Memref sig .tc .vmem S256x256 .f32) (harg5 : arg5.IsWhole) (arg6 : Memref sig .tc .vmem S1x256 .f32) (harg6 : arg6.IsWhole)
    (arg7 : Memref sig .tc .vmem S512x256 .f32) (harg7 : arg7.IsWhole)
    (aL aR : Vec F S512x2048 .f32) (x : Vec F S4096x256 .f32) (dg : Vec F S512x1 .f32) (w : Vec F S256x256 .f32) (b : Vec F S1x256 .f32)
    (K : PUnit → sProp 𝕄) :
    iprop(owns (c : Thread nD τ) arg1 fullShare aL ∗ owns (c : Thread nD τ) arg2 fullShare aR ∗ owns (c : Thread nD τ) arg3 fullShare x
        ∗ owns (c : Thread nD τ) arg4 fullShare dg ∗ owns (c : Thread nD τ) arg5 fullShare w ∗ owns (c : Thread nD τ) arg6 fullShare b
        ∗ (∃ d, owns (c : Thread nD τ) arg7 fullShare d)
        ∗ (iprop(owns (c : Thread nD τ) arg1 fullShare aL ∗ owns (c : Thread nD τ) arg2 fullShare aR ∗ owns (c : Thread nD τ) arg3 fullShare x
            ∗ owns (c : Thread nD τ) arg4 fullShare dg ∗ owns (c : Thread nD τ) arg5 fullShare w ∗ owns (c : Thread nD τ) arg6 fullShare b
            ∗ owns (c : Thread nD τ) arg7 fullShare (outBlk i aL aR x dg w b)) -∗ K ⟨⟩))
      ⊢ wp frame (wpE (defs₀ (F := F)) Variants.none c none) E
          (cc0__gcn_block i arg1 harg1 arg2 harg2 arg3 harg3 arg4 harg4 arg5 harg5 arg6 harg6 arg7 harg7) K := by
  simp only [cc0__gcn_block_eq_skeleton]; unfold cc0__gcn_block_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover_out _)

end Cert.Kernel.Hand

end
-- ==== Proof.KFrame.lean ====
/-
  The proof data of the kernel's one pipeline and its body obligation. The region is entered after one host operation (the
  bias reshaped to one row). The two windows on the adjacency matrix read ONE array, so each holds half of its share; every
  other input window holds its array whole. After the body at grid point `t` each input's buffer holds its block at `t` and
  the output's buffer the stored block computed from the six input blocks at `t`.
-/
import proofs.«163437_g78726750535692_cont_9to1_m_447_9_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the one host operation. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main up to the region: the host operation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operation writes only the reshaped bias: each argument array is found as launched. -/
theorem V_of_ne (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

theorem V_main_arg0 (c : Dev nD) : V m c main_arg0 = m ((c : Thread nD τ).loc main_arg0) := V_of_ne m c _ (by decide)
theorem V_main_arg1 (c : Dev nD) : V m c main_arg1 = m ((c : Thread nD τ).loc main_arg1) := V_of_ne m c _ (by decide)
theorem V_main_arg2 (c : Dev nD) : V m c main_arg2 = m ((c : Thread nD τ).loc main_arg2) := V_of_ne m c _ (by decide)
theorem V_main_arg3 (c : Dev nD) : V m c main_arg3 = m ((c : Thread nD τ).loc main_arg3) := V_of_ne m c _ (by decide)
theorem V_main_arg4 (c : Dev nD) : V m c main_arg4 = m ((c : Thread nD τ).loc main_arg4) := V_of_ne m c _ (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The pipeline's proof data -/

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (grid0.coords t) (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = outBlk (grid0.coords t) (iblk m c 0 t) (iblk m c 1 t) (iblk m c 2 t) (iblk m c 3 t) (iblk m c 4 t) (iblk m c 5 t) := by dsimp only [dats]

/-- Each input window's current buffer holds its block at every point, fetched there or not: unfetched, its block index
    has not moved since the fetch, and the body leaves the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KRun.lean ====
/-
  The launch. The adjacency matrix's buffer, held whole when the region is entered, is split into its two half shares, one
  for each window that reads it; every other array is held whole by its one window. The region then runs the pipeline, and at
  its end every array of the pipeline holds what the write-backs left, and the one buffer no window stages is as the region
  found it.
-/
import proofs.«163437_g78726750535692_cont_9to1_m_447_9_alg».proof.Proof.KFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each window's array at entry, as a points-to of the buffer behind it -/

theorem piece0 (c : Dev nD) :
    (View.loc c.tc (cfg0.win 0).arr.view ↦[(cfg0.win 0).arr.view.set]{(dats m 0 c).share 0} (dats m 0 c).arrAt 0 0 : sProp 𝕄)
      = (c.tc.loc main_arg1 ↦{fullShare.left} V m c main_arg1) := by
  rw [(arr_whole0 0).set_eq_univ]; rfl
theorem piece1 (c : Dev nD) :
    (View.loc c.tc (cfg0.win 1).arr.view ↦[(cfg0.win 1).arr.view.set]{(dats m 0 c).share 1} (dats m 0 c).arrAt 1 0 : sProp 𝕄)
      = (c.tc.loc main_arg1 ↦{fullShare.right} V m c main_arg1) := by
  rw [(arr_whole0 1).set_eq_univ]; rfl
theorem piece2 (c : Dev nD) :
    (View.loc c.tc (cfg0.win 2).arr.view ↦[(cfg0.win 2).arr.view.set]{(dats m 0 c).share 2} (dats m 0 c).arrAt 2 0 : sProp 𝕄)
      = (c.tc.loc main_arg0 ↦{fullShare} V m c main_arg0) := by
  rw [(arr_whole0 2).set_eq_univ]; rfl
theorem piece3 (c : Dev nD) :
    (View.loc c.tc (cfg0.win 3).arr.view ↦[(cfg0.win 3).arr.view.set]{(dats m 0 c).share 3} (dats m 0 c).arrAt 3 0 : sProp 𝕄)
      = (c.tc.loc main_arg2 ↦{fullShare} V m c main_arg2) := by
  rw [(arr_whole0 3).set_eq_univ]; rfl
theorem piece4 (c : Dev nD) :
    (View.loc c.tc (cfg0.win 4).arr.view ↦[(cfg0.win 4).arr.view.set]{(dats m 0 c).share 4} (dats m 0 c).arrAt 4 0 : sProp 𝕄)
      = (c.tc.loc main_arg3 ↦{fullShare} V m c main_arg3) := by
  rw [(arr_whole0 4).set_eq_univ]; rfl
theorem piece5 (c : Dev nD) :
    (View.loc c.tc (cfg0.win 5).arr.view ↦[(cfg0.win 5).arr.view.set]{(dats m 0 c).share 5} (dats m 0 c).arrAt 5 0 : sProp 𝕄)
      = (c.tc.loc main_v0 ↦{fullShare} V m c main_v0) := by
  rw [(arr_whole0 5).set_eq_univ]; rfl
theorem piece6 (c : Dev nD) :
    (View.loc c.tc (cfg0.win 6).arr.view ↦[(cfg0.win 6).arr.view.set]{(dats m 0 c).share 6} (dats m 0 c).arrAt 6 0 : sProp 𝕄)
      = (c.tc.loc main_v1 ↦{fullShare} V m c main_v1) := by
  rw [(arr_whole0 6).set_eq_univ]; rfl

/-- The buffers behind the windows' arrays, each whole, make the proof data's arrays at entry: the adjacency matrix's
    share halved between its two windows. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have hL : ∀ Φ : Ref sig .tc → sProp 𝕄, bigSep (Finset.univ.image (Pipeline.arrRef spec0)) Φ
      = iprop(Φ main_arg1 ∗ Φ main_arg0 ∗ Φ main_arg2 ∗ Φ main_arg3 ∗ Φ main_v0 ∗ Φ main_v1) :=
    fun Φ => bigSep_eq_bigSepL_of_eq [main_arg1, main_arg0, main_arg2, main_arg3, main_v0, main_v1] (by decide) (by decide) Φ
  unfold Pipeline.arrBufs Dat.arrays
  rw [hL, bigSep_W0]
  rw [piece0, piece1, piece2, piece3, piece4, piece5, piece6]
  iintro ⟨H1, H0, H2, H3, H4, H5⟩
  ihave H1 := (pointsTo_share (PosShare.mem_left_op_right fullShare)).1 $$ H1
  icases H1 with ⟨H1a, H1b⟩
  isplitl [H1a]; · iexact H1a
  isplitl [H1b]; · iexact H1b
  isplitl [H0]; · iexact H0
  isplitl [H2]; · iexact H2
  isplitl [H3]; · iexact H3
  isplitl [H4]; · iexact H4
  iexact H5

/-! ## The run -/

/-- The invariant at every point: the core's scoped buffers that are no staging buffer. -/
theorem Φ_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

/-- Entering the region: the scoped rest is the invariant before the first point. -/
theorem hin (c : Dev nD) :
    iprop((BI.emp : sProp 𝕄) ∗ Pipeline.scopedRest (Ix := Unit) (Name := ℕ) (U := UR sig nD τ) (Lvl := ℕ) (Val := Elt F) spec0 c)
      ⊢ (dats m 0 c).Φ 0 := by
  rw [Φ_eq]; iintro ⟨-, H⟩; iexact H

/-- Leaving it: the invariant after the last point gives the scoped rest back. -/
theorem hout (c : Dev nD) :
    (dats m 0 c).Φ (Fin.last cfg0.N)
      ⊢ iprop((BI.emp : sProp 𝕄) ∗ Pipeline.scopedRest (Ix := Unit) (Name := ℕ) (U := UR sig nD τ) (Lvl := ℕ) (Val := Elt F) spec0 c) := by
  rw [Φ_eq]; iintro H; isplitr
  · iempintro
  · iexact H

set_option backward.isDefEq.respectTransparency.types false in
/-- For any values, from any memory with zero counters: every weakly fair execution of @main terminates, and in every final
    state each array of the pipeline holds the entry contents overwritten by the write-backs, and every other unscoped buffer
    what it held when the region was entered. -/
theorem run_main : θ_run defs (onTc (τ := τ) (main (F := F))) ⟨m, fun _ => 0, ρ⟩
    (fun r => ∀ c : Dev nD, (∀ w, r.2.mem ((spec0 w).arr.view.loc (c.tc : Thread nD τ)) = (dats m 0 c).arrAt w cfg0.N)
      ∧ ∀ b ∈ Pipeline.restRefs sig spec0, r.2.mem ((c.tc : Thread nD τ).loc b) = V m c b) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none)
    (hsplit := hsplit m)
    (X := fun _ => BI.emp) (Y := fun _ => BI.emp)
    (Z := fun c => Pipeline.unscopedRest (Ix := Unit) (Name := ℕ) (U := UR sig nD τ) (Lvl := ℕ) spec0 c (V m c))
    (hX := fun c => by
      iintro H; isplitr
      · iempintro
      · iexact H)
    (hin := hin m)
    (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => h c)

/-! ## The frame, and the run with the output array named -/

/-- The run's post read at the argument arrays: four of them are input windows' arrays, which no write-back touches, and the
    bias is no window's array; each is found as launched, the one host operation writing only the reshaped bias. -/
theorem args_kept (c : Dev nD) (r : PUnit × MemSt nD τ sig (Elt F))
    (h : (∀ w, r.2.mem ((spec0 w).arr.view.loc (c.tc : Thread nD τ)) = (dats m 0 c).arrAt w cfg0.N)
      ∧ ∀ b ∈ Pipeline.restRefs sig spec0, r.2.mem ((c.tc : Thread nD τ).loc b) = V m c b) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h.1 2).trans (((dats m 0 c).arrAt_in 2 rfl _).trans ((A_eq m c 2).trans (V_main_arg0 m c))),
    (h.1 0).trans (((dats m 0 c).arrAt_in 0 rfl _).trans ((A_eq m c 0).trans (V_main_arg1 m c))),
    (h.1 3).trans (((dats m 0 c).arrAt_in 3 rfl _).trans ((A_eq m c 3).trans (V_main_arg2 m c))),
    (h.1 4).trans (((dats m 0 c).arrAt_in 4 rfl _).trans ((A_eq m c 4).trans (V_main_arg3 m c))),
    (h.2 main_arg4 (Pipeline.mem_restRefs_of main_arg4 (by decide) (by decide))).trans (V_main_arg4 m c)⟩

/-- THE FRAME: @main terminates, faults nowhere, and leaves its five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => args_kept m c r (h c)) (run_main m ρ)

/-- The run with the result array named: it ends at the output window's array after the last write-back. -/
theorem run_out : θ_run defs (onTc (τ := τ) (main (F := F))) ⟨m, fun _ => 0, ρ⟩ (fun r => ∀ c : Dev nD,
      r.2.mem ((c.tc : Thread nD τ).loc main_v1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1 6, args_kept m c r (h c)⟩) (run_main m ρ)

end Cert.Kernel.Hand

end
-- ==== Proof.KiBody.lean ====
/-
  The kernel body on its seven staging buffers. The body loads the two column halves of a row strip of the adjacency
  matrix, the two row halves of the feature matrix and its row strip at the grid point, the weights, the strip's degrees and
  the bias, and stores ONE block: the payload of those eight loaded values. So after the body the output's buffer holds that
  payload, whole, and every input's buffer is as it was.
-/
import proofs.«163437_g78726750535692_cont_9to1_m_447_9_alg».proof.Proof.Gen.KernelIdeal.Launch
import proofs.«163437_g78726750535692_cont_9to1_m_447_9_alg».proof.Proof.Gen.KernelIdeal.Skeleton
import proofs.«163437_g78726750535692_cont_9to1_m_447_9_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

/-- A whole strip half of the adjacency matrix (512 rows, 2048 columns). -/
abbrev rAdj : Rect S512x2048 := Rect.unit (s := S512x2048) ![0, 0] S512x2048.size inb_S512x2048_S512x2048_0_0
/-- Rows 0 … 2047 of the feature matrix. -/
abbrev rXlo : Rect S4096x256 := Rect.unit (s := S4096x256) ![0, 0] S2048x256.size inb_S4096x256_S2048x256_0_0
/-- Rows 2048 … 4095 of the feature matrix. -/
abbrev rXhi : Rect S4096x256 := Rect.unit (s := S4096x256) ![2048, 0] S2048x256.size inb_S4096x256_S2048x256_2048_0
/-- The 512 rows of the feature matrix that the grid point's strip adds back. -/
abbrev rXat (i : grid0.Coords) : Rect S4096x256 := Rect.unit (s := S4096x256) (k0_off1 i) S512x256.size (k0_off1_inb i)
abbrev rW : Rect S256x256 := Rect.unit (s := S256x256) ![0, 0] S256x256.size inb_S256x256_S256x256_0_0
abbrev rDeg : Rect S512x1 := Rect.unit (s := S512x1) ![0, 0] S512x1.size inb_S512x1_S512x1_0_0
abbrev rB : Rect S1x256 := Rect.unit (s := S1x256) ![0, 0] S1x256.size inb_S1x256_S1x256_0_0
abbrev rOut : Rect S512x256 := Rect.unit (s := S512x256) ![0, 0] S512x256.size inb_S512x256_S512x256_0_0

/-! ## What the body leaves in the output's buffer -/

/-- The output block at grid coordinates `i`, from the contents of the six input buffers: the one store's payload. -/
def outBlk (i : grid0.Coords) (aL aR : Vec F S512x2048 .f32) (x : Vec F S4096x256 .f32) (dg : Vec F S512x1 .f32)
    (w : Vec F S256x256 .f32) (b : Vec F S1x256 .f32) : Vec F S512x256 .f32 :=
  View.canon [⟨rOut, k0_pay1 (View.ld aL rAdj) (View.ld x rXlo) (View.ld aR rAdj) (View.ld x rXhi) (View.ld x (rXat i))
    (View.ld w rW) (View.ld dg rDeg) (View.ld b rB)⟩]

/-- The one store covers the output's buffer. -/
theorem cover_out (p0 : Vec F S512x256 .f32) (y : S512x256.Idx) :
    ∃ pc ∈ ([⟨rOut, p0⟩] : List (View.Piece (Elt F) S512x256 .f32)), y ∈ pc.1.set :=
  View.cover_of_tiled [⟨rOut, p0⟩] S512x256.size (by rfl) y

/-! ## The body's triple -/

set_option maxHeartbeats 1000000 in
/-- The body on whole staging memrefs, the inputs' at read contents and the output's at anything, runs to the continuation
    holding the inputs' as they were and the output's at `outBlk` of the inputs'. -/
theorem sound_kernel (c : Dev nD) (E : Set ℕ) (i : grid0.Coords)
    (arg1 : Memref sig .tc .vmem S512x2048 .f32) (harg1 : arg1.IsWhole) (arg2 : Memref sig .tc .vmem S512x2048 .f32) (harg2 : arg2.IsWhole)
    (arg3 : Memref sig .tc .vmem S4096x256 .f32) (harg3 : arg3.IsWhole) (arg4 : Memref sig .tc .vmem S512x1 .f32) (harg4 : arg4.IsWhole)
    (arg5 : Memref sig .tc .vmem S256x256 .f32) (harg5 : arg5.IsWhole) (arg6 : Memref sig .tc .vmem S1x256 .f32) (harg6 : arg6.IsWhole)
    (arg7 : Memref sig .tc .vmem S512x256 .f32) (harg7 : arg7.IsWhole)
    (aL aR : Vec F S512x2048 .f32) (x : Vec F S4096x256 .f32) (dg : Vec F S512x1 .f32) (w : Vec F S256x256 .f32) (b : Vec F S1x256 .f32)
    (K : PUnit → sProp 𝕄) :
    iprop(owns (c : Thread nD τ) arg1 fullShare aL ∗ owns (c : Thread nD τ) arg2 fullShare aR ∗ owns (c : Thread nD τ) arg3 fullShare x
        ∗ owns (c : Thread nD τ) arg4 fullShare dg ∗ owns (c : Thread nD τ) arg5 fullShare w ∗ owns (c : Thread nD τ) arg6 fullShare b
        ∗ (∃ d, owns (c : Thread nD τ) arg7 fullShare d)
        ∗ (iprop(owns (c : Thread nD τ) arg1 fullShare aL ∗ owns (c : Thread nD τ) arg2 fullShare aR ∗ owns (c : Thread nD τ) arg3 fullShare x
            ∗ owns (c : Thread nD τ) arg4 fullShare dg ∗ owns (c : Thread nD τ) arg5 fullShare w ∗ owns (c : Thread nD τ) arg6 fullShare b
            ∗ owns (c : Thread nD τ) arg7 fullShare (outBlk i aL aR x dg w b)) -∗ K ⟨⟩))
      ⊢ wp frame (wpE (defs₀ (F := F)) Variants.none c none) E
          (cc0__gcn_block i arg1 harg1 arg2 harg2 arg3 harg3 arg4 harg4 arg5 harg5 arg6 harg6 arg7 harg7) K := by
  simp only [cc0__gcn_block_eq_skeleton]; unfold cc0__gcn_block_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover_out _)

end Cert.KernelIdeal.Hand

end
-- ==== Proof.KiFrame.lean ====
/-
  The proof data of the kernel's one pipeline and its body obligation. The region is entered after one host operation (the
  bias reshaped to one row). The two windows on the adjacency matrix read ONE array, so each holds half of its share; every
  other input window holds its array whole. After the body at grid point `t` each input's buffer holds its block at `t` and
  the output's buffer the stored block computed from the six input blocks at `t`.
-/
import proofs.«163437_g78726750535692_cont_9to1_m_447_9_alg».proof.Proof.KiBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the one host operation. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main up to the region: the host operation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operation writes only the reshaped bias: each argument array is found as launched. -/
theorem V_of_ne (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

theorem V_main_arg0 (c : Dev nD) : V m c main_arg0 = m ((c : Thread nD τ).loc main_arg0) := V_of_ne m c _ (by decide)
theorem V_main_arg1 (c : Dev nD) : V m c main_arg1 = m ((c : Thread nD τ).loc main_arg1) := V_of_ne m c _ (by decide)
theorem V_main_arg2 (c : Dev nD) : V m c main_arg2 = m ((c : Thread nD τ).loc main_arg2) := V_of_ne m c _ (by decide)
theorem V_main_arg3 (c : Dev nD) : V m c main_arg3 = m ((c : Thread nD τ).loc main_arg3) := V_of_ne m c _ (by decide)
theorem V_main_arg4 (c : Dev nD) : V m c main_arg4 = m ((c : Thread nD τ).loc main_arg4) := V_of_ne m c _ (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The pipeline's proof data -/

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (grid0.coords t) (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = outBlk (grid0.coords t) (iblk m c 0 t) (iblk m c 1 t) (iblk m c 2 t) (iblk m c 3 t) (iblk m c 4 t) (iblk m c 5 t) := by dsimp only [dats]

/-- Each input window's current buffer holds its block at every point, fetched there or not: unfetched, its block index
    has not moved since the fetch, and the body leaves the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KiRun.lean ====
/-
  The launch. The adjacency matrix's buffer, held whole when the region is entered, is split into its two half shares, one
  for each window that reads it; every other array is held whole by its one window. The region then runs the pipeline, and at
  its end every array of the pipeline holds what the write-backs left, and the one buffer no window stages is as the region
  found it.
-/
import proofs.«163437_g78726750535692_cont_9to1_m_447_9_alg».proof.Proof.KiFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each window's array at entry, as a points-to of the buffer behind it -/

theorem piece0 (c : Dev nD) :
    (View.loc c.tc (cfg0.win 0).arr.view ↦[(cfg0.win 0).arr.view.set]{(dats m 0 c).share 0} (dats m 0 c).arrAt 0 0 : sProp 𝕄)
      = (c.tc.loc main_arg1 ↦{fullShare.left} V m c main_arg1) := by
  rw [(arr_whole0 0).set_eq_univ]; rfl
theorem piece1 (c : Dev nD) :
    (View.loc c.tc (cfg0.win 1).arr.view ↦[(cfg0.win 1).arr.view.set]{(dats m 0 c).share 1} (dats m 0 c).arrAt 1 0 : sProp 𝕄)
      = (c.tc.loc main_arg1 ↦{fullShare.right} V m c main_arg1) := by
  rw [(arr_whole0 1).set_eq_univ]; rfl
theorem piece2 (c : Dev nD) :
    (View.loc c.tc (cfg0.win 2).arr.view ↦[(cfg0.win 2).arr.view.set]{(dats m 0 c).share 2} (dats m 0 c).arrAt 2 0 : sProp 𝕄)
      = (c.tc.loc main_arg0 ↦{fullShare} V m c main_arg0) := by
  rw [(arr_whole0 2).set_eq_univ]; rfl
theorem piece3 (c : Dev nD) :
    (View.loc c.tc (cfg0.win 3).arr.view ↦[(cfg0.win 3).arr.view.set]{(dats m 0 c).share 3} (dats m 0 c).arrAt 3 0 : sProp 𝕄)
      = (c.tc.loc main_arg2 ↦{fullShare} V m c main_arg2) := by
  rw [(arr_whole0 3).set_eq_univ]; rfl
theorem piece4 (c : Dev nD) :
    (View.loc c.tc (cfg0.win 4).arr.view ↦[(cfg0.win 4).arr.view.set]{(dats m 0 c).share 4} (dats m 0 c).arrAt 4 0 : sProp 𝕄)
      = (c.tc.loc main_arg3 ↦{fullShare} V m c main_arg3) := by
  rw [(arr_whole0 4).set_eq_univ]; rfl
theorem piece5 (c : Dev nD) :
    (View.loc c.tc (cfg0.win 5).arr.view ↦[(cfg0.win 5).arr.view.set]{(dats m 0 c).share 5} (dats m 0 c).arrAt 5 0 : sProp 𝕄)
      = (c.tc.loc main_v0 ↦{fullShare} V m c main_v0) := by
  rw [(arr_whole0 5).set_eq_univ]; rfl
theorem piece6 (c : Dev nD) :
    (View.loc c.tc (cfg0.win 6).arr.view ↦[(cfg0.win 6).arr.view.set]{(dats m 0 c).share 6} (dats m 0 c).arrAt 6 0 : sProp 𝕄)
      = (c.tc.loc main_v1 ↦{fullShare} V m c main_v1) := by
  rw [(arr_whole0 6).set_eq_univ]; rfl

/-- The buffers behind the windows' arrays, each whole, make the proof data's arrays at entry: the adjacency matrix's
    share halved between its two windows. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have hL : ∀ Φ : Ref sig .tc → sProp 𝕄, bigSep (Finset.univ.image (Pipeline.arrRef spec0)) Φ
      = iprop(Φ main_arg1 ∗ Φ main_arg0 ∗ Φ main_arg2 ∗ Φ main_arg3 ∗ Φ main_v0 ∗ Φ main_v1) :=
    fun Φ => bigSep_eq_bigSepL_of_eq [main_arg1, main_arg0, main_arg2, main_arg3, main_v0, main_v1] (by decide) (by decide) Φ
  unfold Pipeline.arrBufs Dat.arrays
  rw [hL, bigSep_W0]
  rw [piece0, piece1, piece2, piece3, piece4, piece5, piece6]
  iintro ⟨H1, H0, H2, H3, H4, H5⟩
  ihave H1 := (pointsTo_share (PosShare.mem_left_op_right fullShare)).1 $$ H1
  icases H1 with ⟨H1a, H1b⟩
  isplitl [H1a]; · iexact H1a
  isplitl [H1b]; · iexact H1b
  isplitl [H0]; · iexact H0
  isplitl [H2]; · iexact H2
  isplitl [H3]; · iexact H3
  isplitl [H4]; · iexact H4
  iexact H5

/-! ## The run -/

/-- The invariant at every point: the core's scoped buffers that are no staging buffer. -/
theorem Φ_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

/-- Entering the region: the scoped rest is the invariant before the first point. -/
theorem hin (c : Dev nD) :
    iprop((BI.emp : sProp 𝕄) ∗ Pipeline.scopedRest (Ix := Unit) (Name := ℕ) (U := UR sig nD τ) (Lvl := ℕ) (Val := Elt F) spec0 c)
      ⊢ (dats m 0 c).Φ 0 := by
  rw [Φ_eq]; iintro ⟨-, H⟩; iexact H

/-- Leaving it: the invariant after the last point gives the scoped rest back. -/
theorem hout (c : Dev nD) :
    (dats m 0 c).Φ (Fin.last cfg0.N)
      ⊢ iprop((BI.emp : sProp 𝕄) ∗ Pipeline.scopedRest (Ix := Unit) (Name := ℕ) (U := UR sig nD τ) (Lvl := ℕ) (Val := Elt F) spec0 c) := by
  rw [Φ_eq]; iintro H; isplitr
  · iempintro
  · iexact H

set_option backward.isDefEq.respectTransparency.types false in
/-- For any values, from any memory with zero counters: every weakly fair execution of @main terminates, and in every final
    state each array of the pipeline holds the entry contents overwritten by the write-backs, and every other unscoped buffer
    what it held when the region was entered. -/
theorem run_main : θ_run defs (onTc (τ := τ) (main (F := F))) ⟨m, fun _ => 0, ρ⟩
    (fun r => ∀ c : Dev nD, (∀ w, r.2.mem ((spec0 w).arr.view.loc (c.tc : Thread nD τ)) = (dats m 0 c).arrAt w cfg0.N)
      ∧ ∀ b ∈ Pipeline.restRefs sig spec0, r.2.mem ((c.tc : Thread nD τ).loc b) = V m c b) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none)
    (hsplit := hsplit m)
    (X := fun _ => BI.emp) (Y := fun _ => BI.emp)
    (Z := fun c => Pipeline.unscopedRest (Ix := Unit) (Name := ℕ) (U := UR sig nD τ) (Lvl := ℕ) spec0 c (V m c))
    (hX := fun c => by
      iintro H; isplitr
      · iempintro
      · iexact H)
    (hin := hin m)
    (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => h c)

/-! ## The frame, and the run with the output array named -/

/-- The run's post read at the argument arrays: four of them are input windows' arrays, which no write-back touches, and the
    bias is no window's array; each is found as launched, the one host operation writing only the reshaped bias. -/
theorem args_kept (c : Dev nD) (r : PUnit × MemSt nD τ sig (Elt F))
    (h : (∀ w, r.2.mem ((spec0 w).arr.view.loc (c.tc : Thread nD τ)) = (dats m 0 c).arrAt w cfg0.N)
      ∧ ∀ b ∈ Pipeline.restRefs sig spec0, r.2.mem ((c.tc : Thread nD τ).loc b) = V m c b) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h.1 2).trans (((dats m 0 c).arrAt_in 2 rfl _).trans ((A_eq m c 2).trans (V_main_arg0 m c))),
    (h.1 0).trans (((dats m 0 c).arrAt_in 0 rfl _).trans ((A_eq m c 0).trans (V_main_arg1 m c))),
    (h.1 3).trans (((dats m 0 c).arrAt_in 3 rfl _).trans ((A_eq m c 3).trans (V_main_arg2 m c))),
    (h.1 4).trans (((dats m 0 c).arrAt_in 4 rfl _).trans ((A_eq m c 4).trans (V_main_arg3 m c))),
    (h.2 main_arg4 (Pipeline.mem_restRefs_of main_arg4 (by decide) (by decide))).trans (V_main_arg4 m c)⟩

/-- THE FRAME: @main terminates, faults nowhere, and leaves its five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => args_kept m c r (h c)) (run_main m ρ)

/-- The run with the result array named: it ends at the output window's array after the last write-back. -/
theorem run_out : θ_run defs (onTc (τ := τ) (main (F := F))) ⟨m, fun _ => 0, ρ⟩ (fun r => ∀ c : Dev nD,
      r.2.mem ((c.tc : Thread nD τ).loc main_v1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1 6, args_kept m c r (h c)⟩) (run_main m ρ)

end Cert.KernelIdeal.Hand

end
-- ==== Proof.PayloadAt.lean ====
import proofs.«163437_g78726750535692_cont_9to1_m_447_9_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section
namespace Cert.KernelIdeal.PayAt
open Idealize.ShloMosaic Idealize.ShloMosaic.ValueIdx Cert.KernelIdeal Cert.KernelIdeal.Gen

/-! ### The [512,2048] × [2048,256] product: its operand indices, axis by axis -/

private theorem lhsA_0 (i : S512x256.Idx) (c : dot_S512x2048_S2048x256_S512x256_1_0_0_1_n_n.contr.Idx) :
    (dot_S512x2048_S2048x256_S512x256_1_0_0_1_n_n.lhsIdx i c 0).val = (i 0).val := by
  unfold DotDims.lhsIdx
  rw [dif_neg (show ¬(0 : Fin S512x2048.rank) ∈ dot_S512x2048_S2048x256_S512x256_1_0_0_1_n_n.lhsBatch by decide),
    dif_pos (show (0 : Fin S512x2048.rank) ∈ dot_S512x2048_S2048x256_S512x256_1_0_0_1_n_n.lhsNonContracting by decide)]
  rfl

private theorem lhsA_1 (i : S512x256.Idx) (c : dot_S512x2048_S2048x256_S512x256_1_0_0_1_n_n.contr.Idx) :
    (dot_S512x2048_S2048x256_S512x256_1_0_0_1_n_n.lhsIdx i c 1).val = (c ⟨0, by decide⟩).val :=
  dot_S512x2048_S2048x256_S512x256_1_0_0_1_n_n.lhsIdx_val_of_single rfl i c

private theorem rhsA_0 (i : S512x256.Idx) (c : dot_S512x2048_S2048x256_S512x256_1_0_0_1_n_n.contr.Idx) :
    (dot_S512x2048_S2048x256_S512x256_1_0_0_1_n_n.rhsIdx i c 0).val = (c ⟨0, by decide⟩).val :=
  dot_S512x2048_S2048x256_S512x256_1_0_0_1_n_n.rhsIdx_val_of_single rfl i c

private theorem rhsA_1 (i : S512x256.Idx) (c : dot_S512x2048_S2048x256_S512x256_1_0_0_1_n_n.contr.Idx) :
    (dot_S512x2048_S2048x256_S512x256_1_0_0_1_n_n.rhsIdx i c 1).val = (i 1).val := by
  unfold DotDims.rhsIdx
  rw [dif_neg (show ¬(1 : Fin S2048x256.rank) ∈ dot_S512x2048_S2048x256_S512x256_1_0_0_1_n_n.rhsBatch by decide),
    dif_pos (show (1 : Fin S2048x256.rank) ∈ dot_S512x2048_S2048x256_S512x256_1_0_0_1_n_n.rhsNonContracting by decide)]
  rfl

/-- Entry (p, q) of a [512,2048] × [2048,256] product into the zero block is the sum over the 2048 shared coordinates. -/
private theorem mmA_at (x : FVec Ideal S512x2048 .f32) (y : FVec Ideal S2048x256 .f32) (p : Fin 512) (q : Fin 256) :
    matmul (F := Ideal) dot_S512x2048_S2048x256_S512x256_1_0_0_1_n_n none x y (constant (F := Ideal) S512x256 .f32 0x00000000#32) (ix2 p q)
      = ∑ k : Fin 2048, x (ix2 p k) * y (ix2 k q) := by
  show FloatOps.matmul dot_S512x2048_S2048x256_S512x256_1_0_0_1_n_n none x y (constant (F := Ideal) S512x256 .f32 0x00000000#32) (ix2 p q) = _
  rw [Ideal.matmul_constant_zero_apply, ← Equiv.sum_comp (contrEquiv1 dot_S512x2048_S2048x256_S512x256_1_0_0_1_n_n 2048 rfl rfl).symm]
  refine Finset.sum_congr rfl fun k _ => ?_
  have hk := contrEquiv1_symm_val dot_S512x2048_S2048x256_S512x256_1_0_0_1_n_n 2048 rfl rfl k
  have el : dot_S512x2048_S2048x256_S512x256_1_0_0_1_n_n.lhsIdx (ix2 p q) ((contrEquiv1 dot_S512x2048_S2048x256_S512x256_1_0_0_1_n_n 2048 rfl rfl).symm k) = ix2 p k := funext fun a => Fin.ext (by
    match a with
    | ⟨0, _⟩ => exact lhsA_0 _ _
    | ⟨1, _⟩ => exact (lhsA_1 _ _).trans hk)
  have er : dot_S512x2048_S2048x256_S512x256_1_0_0_1_n_n.rhsIdx (ix2 p q) ((contrEquiv1 dot_S512x2048_S2048x256_S512x256_1_0_0_1_n_n 2048 rfl rfl).symm k) = ix2 k q := funext fun a => Fin.ext (by
    match a with
    | ⟨0, _⟩ => exact (rhsA_0 _ _).trans hk
    | ⟨1, _⟩ => exact rhsA_1 _ _)
  rw [el, er]

/-! ### The [512,256] × [256,256] product: its operand indices, axis by axis -/

private theorem lhsB_0 (i : S512x256.Idx) (c : dot_S512x256_S256x256_S512x256_1_0_0_1_n_n.contr.Idx) :
    (dot_S512x256_S256x256_S512x256_1_0_0_1_n_n.lhsIdx i c 0).val = (i 0).val := by
  unfold DotDims.lhsIdx
  rw [dif_neg (show ¬(0 : Fin S512x256.rank) ∈ dot_S512x256_S256x256_S512x256_1_0_0_1_n_n.lhsBatch by decide),
    dif_pos (show (0 : Fin S512x256.rank) ∈ dot_S512x256_S256x256_S512x256_1_0_0_1_n_n.lhsNonContracting by decide)]
  rfl

private theorem lhsB_1 (i : S512x256.Idx) (c : dot_S512x256_S256x256_S512x256_1_0_0_1_n_n.contr.Idx) :
    (dot_S512x256_S256x256_S512x256_1_0_0_1_n_n.lhsIdx i c 1).val = (c ⟨0, by decide⟩).val :=
  dot_S512x256_S256x256_S512x256_1_0_0_1_n_n.lhsIdx_val_of_single rfl i c

private theorem rhsB_0 (i : S512x256.Idx) (c : dot_S512x256_S256x256_S512x256_1_0_0_1_n_n.contr.Idx) :
    (dot_S512x256_S256x256_S512x256_1_0_0_1_n_n.rhsIdx i c 0).val = (c ⟨0, by decide⟩).val :=
  dot_S512x256_S256x256_S512x256_1_0_0_1_n_n.rhsIdx_val_of_single rfl i c

private theorem rhsB_1 (i : S512x256.Idx) (c : dot_S512x256_S256x256_S512x256_1_0_0_1_n_n.contr.Idx) :
    (dot_S512x256_S256x256_S512x256_1_0_0_1_n_n.rhsIdx i c 1).val = (i 1).val := by
  unfold DotDims.rhsIdx
  rw [dif_neg (show ¬(1 : Fin S256x256.rank) ∈ dot_S512x256_S256x256_S512x256_1_0_0_1_n_n.rhsBatch by decide),
    dif_pos (show (1 : Fin S256x256.rank) ∈ dot_S512x256_S256x256_S512x256_1_0_0_1_n_n.rhsNonContracting by decide)]
  rfl

/-- Entry (p, q) of a [512,256] × [256,256] product into the zero block is the sum over the 256 shared coordinates. -/
private theorem mmB_at (x : FVec Ideal S512x256 .f32) (y : FVec Ideal S256x256 .f32) (p : Fin 512) (q : Fin 256) :
    matmul (F := Ideal) dot_S512x256_S256x256_S512x256_1_0_0_1_n_n none x y (constant (F := Ideal) S512x256 .f32 0x00000000#32) (ix2 p q)
      = ∑ k : Fin 256, x (ix2 p k) * y (ix2 k q) := by
  show FloatOps.matmul dot_S512x256_S256x256_S512x256_1_0_0_1_n_n none x y (constant (F := Ideal) S512x256 .f32 0x00000000#32) (ix2 p q) = _
  rw [Ideal.matmul_constant_zero_apply, ← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  have el : dot_S512x256_S256x256_S512x256_1_0_0_1_n_n.lhsIdx (ix2 p q) ((contrEquiv1 dot_S512x256_S256x256_S512x256_1_0_0_1_n_n 256 rfl rfl).symm k) = ix2 p k := funext fun a => Fin.ext (by
    match a with
    | ⟨0, _⟩ => exact lhsB_0 _ _
    | ⟨1, _⟩ => exact (lhsB_1 _ _).trans hk)
  have er : dot_S512x256_S256x256_S512x256_1_0_0_1_n_n.rhsIdx (ix2 p q) ((contrEquiv1 dot_S512x256_S256x256_S512x256_1_0_0_1_n_n 256 rfl rfl).symm k) = ix2 k q := funext fun a => Fin.ext (by
    match a with
    | ⟨0, _⟩ => exact (rhsB_0 _ _).trans hk
    | ⟨1, _⟩ => exact rhsB_1 _ _)
  rw [el, er]

/-! ### The two broadcasts -/

/-- A column [512,1] broadcast along the lanes reads, at (p, q), the column's entry of row p. -/
private theorem bcol_at (v : FVec Ideal S512x1 .f32) (h : S512x1.Broadcasts S512x256) (p : Fin 512) (q : Fin 256) :
    broadcastTo S512x256 v h (ix2 p q) = v (ix2 p 0) := by
  refine broadcastTo_apply v h (ix2 p q) (ix2 p (0 : Fin 1)) fun ax => ?_
  match ax with
  | ⟨0, _⟩ => show p.val = if (512 : Nat) = 1 then 0 else p.val; rw [if_neg (by decide)]
  | ⟨1, _⟩ => show (0 : Nat) = if (1 : Nat) = 1 then 0 else q.val; rw [if_pos rfl]

/-- A row [1,256] broadcast down the rows reads, at (p, q), the row's entry of lane q. -/
private theorem brow_at (v : FVec Ideal S1x256 .f32) (h : S1x256.Broadcasts S512x256) (p : Fin 512) (q : Fin 256) :
    broadcastTo S512x256 v h (ix2 p q) = v (ix2 0 q) :=
  broadcastTo_1b_ab_apply v h p q

/-- Entry (p, q) of the block the body stores: the two half products summed, the residual rows added, the product with the
    weights, the quotient by the row's degree, the bias added. -/
theorem pay_at (v0 : Vec Ideal S512x2048 .f32) (v1 : Vec Ideal S2048x256 .f32) (v3 : Vec Ideal S512x2048 .f32) (v4 : Vec Ideal S2048x256 .f32)
    (v9 : Vec Ideal S512x256 .f32) (v11 : Vec Ideal S256x256 .f32) (v13 : Vec Ideal S512x1 .f32) (v16 : Vec Ideal S1x256 .f32)
    (p : Fin 512) (q : Fin 256) :
    k0_pay1 (F := Ideal) v0 v1 v3 v4 v9 v11 v13 v16 (ix2 p q)
      = Ideal.div (∑ j : Fin 256, (((∑ k : Fin 2048, v0 (ix2 p k) * v1 (ix2 k j)) + (∑ k : Fin 2048, v3 (ix2 p k) * v4 (ix2 k j))) + v9 (ix2 p j)) * v11 (ix2 j q))
          (v13 (ix2 p 0)) + v16 (ix2 0 q) := by
  unfold k0_pay1
  rw [addf_apply, divf_apply, mmB_at, bcol_at, shapeCast_self, brow_at]
  have hs : ∀ j : Fin 256,
      addf (addf (matmul (F := Ideal) dot_S512x2048_S2048x256_S512x256_1_0_0_1_n_n none v0 v1 (constant (F := Ideal) S512x256 .f32 0x00000000#32))
          (matmul (F := Ideal) dot_S512x2048_S2048x256_S512x256_1_0_0_1_n_n none v3 v4 (constant (F := Ideal) S512x256 .f32 0x00000000#32))) v9 (ix2 p j)
        = ((∑ k : Fin 2048, v0 (ix2 p k) * v1 (ix2 k j)) + (∑ k : Fin 2048, v3 (ix2 p k) * v4 (ix2 k j))) + v9 (ix2 p j) := fun j => by
    rw [addf_apply, addf_apply, mmA_at, mmA_at]
  exact congrArg (fun s => Ideal.div s (v13 (ix2 p 0)) + v16 (ix2 0 q))
    (Finset.sum_congr rfl fun j _ => congrArg (· * v11 (ix2 j q)) (hs j))

end Cert.KernelIdeal.PayAt
end
-- ==== Proof.Spec.lean ====
/-
  The graph-convolution layer as ONE function of its five argument arrays, entry by entry, on the extended reals:

      out[r, c] = (Σ_j (Σ_k adj[r, k] · x[k, j] + x[r, j]) · w[j, c]) / deg[r, 0] + b[c]

  with `r < 4096`, `c, j < 256`, `k < 4096`; the quotient is the extended reals' total division. Both programs are
  shown to compute this function. The kernel forms the inner sum in two halves of 2048 terms each, which is the same
  sum regrouped (`sum_halves`): addition on the extended reals is commutative and associative, so no finiteness of the
  entries is needed.
-/
import Idealize.ShloMosaic.PureOps.Ideal
import Idealize.ShloMosaic.Lib.ValueIdx
import Mathlib.Algebra.BigOperators.Fin

noncomputable section

namespace Cert.Gcn

open Idealize.ShloMosaic Idealize.ShloMosaic.ValueIdx

abbrev SX : Shape := ⟨2, ![4096, 256]⟩
abbrev SAdj : Shape := ⟨2, ![4096, 4096]⟩
abbrev SDeg : Shape := ⟨2, ![4096, 1]⟩
abbrev SW : Shape := ⟨2, ![256, 256]⟩
abbrev SB : Shape := ⟨1, ![256]⟩

/-- Entry `(r, c)` of the layer's output. -/
def outAt (x : SX.Idx → EReal) (adj : SAdj.Idx → EReal) (deg : SDeg.Idx → EReal) (w : SW.Idx → EReal) (b : SB.Idx → EReal)
    (r : Fin 4096) (c : Fin 256) : EReal :=
  Ideal.div (∑ j : Fin 256, ((∑ k : Fin 4096, adj (ix2 r k) * x (ix2 k j)) + x (ix2 r j)) * w (ix2 j c)) (deg (ix2 r 0)) + b (ix1 c)

/-- The layer's output array. -/
def out (x : SX.Idx → EReal) (adj : SAdj.Idx → EReal) (deg : SDeg.Idx → EReal) (w : SW.Idx → EReal) (b : SB.Idx → EReal) :
    SX.Idx → EReal :=
  fun i => outAt x adj deg w b (i 0) (i 1)

/-- A sum over 4096 terms is the sum of its first 2048 terms plus the sum of its last 2048. -/
theorem sum_halves (f : Fin 4096 → EReal) :
    ∑ k : Fin 4096, f k = (∑ k : Fin 2048, f ⟨k.val, by omega⟩) + ∑ k : Fin 2048, f ⟨2048 + k.val, by omega⟩ := by
  have h := Fin.sum_univ_add (M := EReal) (a := 2048) (b := 2048) (fun i : Fin (2048 + 2048) => f ⟨i.val, by omega⟩)
  exact h

end Cert.Gcn

end
-- ==== Proof.KiValue.lean ====
/-
  From the blocks to the array. At grid point `t` the body stores, as rows `512 t … 512 t + 511` of the output, the layer's
  output function of the five argument arrays read at those rows: each input block is its array read through the block's
  rectangle (row `512 t + p` of the adjacency matrix in two column halves, of the degrees, the feature matrix and the
  weights whole, the bias as one row), and the two 2048-term products are the 4096-term sum regrouped. The eight blocks of
  512 rows cover the 4096 rows, so after the last write-back the output array is that function.
-/
import proofs.«163437_g78726750535692_cont_9to1_m_447_9_alg».proof.Proof.KiFrame
import proofs.«163437_g78726750535692_cont_9to1_m_447_9_alg».proof.Proof.PayloadAt
import proofs.«163437_g78726750535692_cont_9to1_m_447_9_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-! ## The index maps over the grid -/

/-- The printed index maps at grid point `t`: the two adjacency windows, the degrees and the output move down one block of
    rows per point (the second adjacency window one block of columns to the right); the feature matrix, the weights and the
    bias stay. The point's one coordinate is `t`, below 8. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 1
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ ((grid0.coords t) 0).val = t.val ∧ t.val < 8 :=
  (by decide +kernel : ∀ t : Fin grid0.N, _)

/-! ## Loads through the body's rectangles, at explicit coordinates -/

/-- Rows 0 … 2047 of the feature matrix, read at `(k, j)`. -/
theorem ld_lo (x : Vec Ideal S4096x256 .f32) (k : Fin 2048) (j : Fin 256) :
    View.ld x rXlo (ix2 k j) = x (ix2 ⟨k.val, by omega⟩ j) := by
  show x _ = x _
  refine congrArg x (funext fun a => Fin.ext ?_)
  match a with
  | ⟨0, _⟩ => show 0 + 1 * k.val = k.val; omega
  | ⟨1, _⟩ => show 0 + 1 * j.val = j.val; omega

/-- Rows 2048 … 4095 of the feature matrix, read at `(k, j)`. -/
theorem ld_hi (x : Vec Ideal S4096x256 .f32) (k : Fin 2048) (j : Fin 256) :
    View.ld x rXhi (ix2 k j) = x (ix2 ⟨2048 + k.val, by omega⟩ j) := by
  show x _ = x _
  refine congrArg x (funext fun a => Fin.ext ?_)
  match a with
  | ⟨0, _⟩ => show 2048 + 1 * k.val = 2048 + k.val; omega
  | ⟨1, _⟩ => show 0 + 1 * j.val = j.val; omega

/-- The 512 rows from row `512 i` on, read at `(p, j)`: row `512 i + p`. -/
theorem ld_at (x : Vec Ideal S4096x256 .f32) (i : grid0.Coords) (p : Fin 512) (j : Fin 256) (r : Fin 4096)
    (hr : r.val = 512 * (i 0).val + p.val) :
    View.ld x (rXat i) (ix2 p j) = x (ix2 r j) := by
  have h0 : k0_off1 i 0 = 512 * (i 0).val := congrFun (k0_off1_eq i) 0
  have h1 : k0_off1 i 1 = 0 := congrFun (k0_off1_eq i) 1
  show x _ = x _
  refine congrArg x (funext fun a => Fin.ext ?_)
  match a with
  | ⟨0, _⟩ => show k0_off1 i 0 + 1 * p.val = r.val; omega
  | ⟨1, _⟩ => show k0_off1 i 1 + 1 * j.val = j.val; omega

/-! ## The input blocks, read where the output's rows say -/

/-- The left adjacency block at point `t`: rows `512 t + p`, columns `k` below 2048. -/
theorem blkL_at (c : Dev nD) (t : Fin cfg0.N) (p : Fin 512) (k : Fin 2048) (r kk : Fin 4096)
    (hr : r.val = 512 * t.val + p.val) (hk : kk.val = k.val) :
    (iblk m c 0 t : Vec Ideal S512x2048 .f32) (ix2 p k)
      = (m ((c.tc : Thread nD τ).loc main_arg1) : S4096x4096.Idx → EReal) (ix2 r kk) := by
  obtain ⟨e0, e1, -⟩ := idx_facts t
  unfold iblk
  rw [View.read_apply]
  show V m c main_arg1 _ = _
  rw [V_main_arg1]
  refine congrArg _ (funext fun a => Fin.ext ?_)
  match a with
  | ⟨0, _⟩ => show win0_0.index t (0 : Fin 2) * 512 + 1 * p.val = r.val; omega
  | ⟨1, _⟩ => show win0_0.index t (1 : Fin 2) * 2048 + 1 * k.val = kk.val; omega

/-- The right adjacency block at point `t`: rows `512 t + p`, columns `2048 + k`. -/
theorem blkR_at (c : Dev nD) (t : Fin cfg0.N) (p : Fin 512) (k : Fin 2048) (r kk : Fin 4096)
    (hr : r.val = 512 * t.val + p.val) (hk : kk.val = 2048 + k.val) :
    (iblk m c 1 t : Vec Ideal S512x2048 .f32) (ix2 p k)
      = (m ((c.tc : Thread nD τ).loc main_arg1) : S4096x4096.Idx → EReal) (ix2 r kk) := by
  obtain ⟨-, -, e0, e1, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 512 + 1 * p.val = r.val; omega
  | ⟨1, _⟩ => show win0_1.index t (1 : Fin 2) * 2048 + 1 * k.val = kk.val; omega

/-- The feature matrix's window is the whole array at every point. -/
theorem blkX (c : Dev nD) (t : Fin cfg0.N) :
    (iblk m c 2 t : Vec Ideal S4096x256 .f32) = (m ((c.tc : Thread nD τ).loc main_arg0) : S4096x256.Idx → EReal) := by
  obtain ⟨-, -, -, -, e0, e1, -⟩ := idx_facts t
  unfold iblk
  funext y
  rw [View.read_apply]
  show V m c main_arg0 _ = _
  rw [V_main_arg0]
  refine congrArg _ (funext fun a => Fin.ext ?_)
  match a with
  | ⟨0, _⟩ => show win0_2.index t (0 : Fin 2) * 4096 + 1 * (y 0).val = (y 0).val; omega
  | ⟨1, _⟩ => show win0_2.index t (1 : Fin 2) * 256 + 1 * (y 1).val = (y 1).val; omega

/-- The degrees' block at point `t`: rows `512 t + p` of the one column. -/
theorem blkD_at (c : Dev nD) (t : Fin cfg0.N) (p : Fin 512) (r : Fin 4096) (hr : r.val = 512 * t.val + p.val) :
    (iblk m c 3 t : Vec Ideal S512x1 .f32) (ix2 p 0)
      = (m ((c.tc : Thread nD τ).loc main_arg2) : S4096x1.Idx → EReal) (ix2 r 0) := by
  obtain ⟨-, -, -, -, -, -, e0, e1, -⟩ := idx_facts t
  unfold iblk
  rw [View.read_apply]
  show V m c main_arg2 _ = _
  rw [V_main_arg2]
  refine congrArg _ (funext fun a => Fin.ext ?_)
  match a with
  | ⟨0, _⟩ => show win0_3.index t (0 : Fin 2) * 512 + 1 * p.val = r.val; omega
  | ⟨1, _⟩ => show win0_3.index t (1 : Fin 2) * 1 + 1 * 0 = 0; omega

/-- The weights' window is the whole array at every point. -/
theorem blkW (c : Dev nD) (t : Fin cfg0.N) :
    (iblk m c 4 t : Vec Ideal S256x256 .f32) = (m ((c.tc : Thread nD τ).loc main_arg3) : S256x256.Idx → EReal) := by
  obtain ⟨-, -, -, -, -, -, -, -, e0, e1, -⟩ := idx_facts t
  unfold iblk
  funext y
  rw [View.read_apply]
  show V m c main_arg3 _ = _
  rw [V_main_arg3]
  refine congrArg _ (funext fun a => Fin.ext ?_)
  match a with
  | ⟨0, _⟩ => show win0_4.index t (0 : Fin 2) * 256 + 1 * (y 0).val = (y 0).val; omega
  | ⟨1, _⟩ => show win0_4.index t (1 : Fin 2) * 256 + 1 * (y 1).val = (y 1).val; omega

/-- The one row the host operation wrote before the region is the bias: entry `(0, q)` is the bias at `q`. -/
theorem biasRow_at (c : Dev nD) (q : Fin 256) :
    (V m c main_v0 : S1x256.Idx → EReal) (ix2 0 q) = (m ((c.tc : Thread nD τ).loc main_arg4) : S256.Idx → EReal) (ix1 q) := by
  have e : (V m c main_v0 : S1x256.Idx → EReal)
      = shapeCast S1x256 (m ((c.tc : Thread nD τ).loc main_arg4) : S256.Idx → EReal) shapeCasts_S256_S1x256 := by
    dsimp only [V, hostOps0]; after_results; rfl
  rw [e]
  refine shapeCast_apply _ _ (ix2 0 q) (ix1 q) ?_
  rw [Shape.rowMajor_val_one, Shape.rowMajor_val_two]
  show q.val = 0 * 256 + q.val
  omega

/-- The bias row's window is the whole one-row array at every point. -/
theorem blkB_at (c : Dev nD) (t : Fin cfg0.N) (q : Fin 256) :
    (iblk m c 5 t : Vec Ideal S1x256 .f32) (ix2 0 q)
      = (m ((c.tc : Thread nD τ).loc main_arg4) : S256.Idx → EReal) (ix1 q) := by
  obtain ⟨-, -, -, -, -, -, -, -, -, -, e0, e1, -⟩ := idx_facts t
  rw [← biasRow_at m c q]
  unfold iblk
  rw [View.read_apply]
  show V m c main_v0 _ = _
  refine congrArg _ (funext fun a => Fin.ext ?_)
  match a with
  | ⟨0, _⟩ => show win0_5.index t (0 : Fin 2) * 1 + 1 * 0 = 0; omega
  | ⟨1, _⟩ => show win0_5.index t (1 : Fin 2) * 256 + 1 * q.val = q.val; omega

/-! ## The stored block, entry by entry -/

/-- The body's payload of six blocks, at entry `(p, q)`, is the layer's output at row `r` and lane `q` as soon as the blocks
    are the arrays read at row `r`: the adjacency blocks its two column halves, the degrees' block its entry, the bias row
    the bias, and `r` the row the grid coordinate `i` and `p` name. The two 2048-term sums are the 4096-term sum regrouped. -/
theorem pay_out (aL aR : Vec Ideal S512x2048 .f32) (x : Vec Ideal S4096x256 .f32) (dg : Vec Ideal S512x1 .f32)
    (w : Vec Ideal S256x256 .f32) (b : Vec Ideal S1x256 .f32) (i : grid0.Coords)
    (adj : Cert.Gcn.SAdj.Idx → EReal) (deg : Cert.Gcn.SDeg.Idx → EReal) (bias : Cert.Gcn.SB.Idx → EReal)
    (p : Fin 512) (q : Fin 256) (r : Fin 4096)
    (hi : r.val = 512 * (i 0).val + p.val)
    (hL : ∀ k : Fin 2048, aL (ix2 p k) = adj (ix2 r ⟨k.val, by omega⟩))
    (hR : ∀ k : Fin 2048, aR (ix2 p k) = adj (ix2 r ⟨2048 + k.val, by omega⟩))
    (hd : dg (ix2 p 0) = deg (ix2 r 0))
    (hb : b (ix2 0 q) = bias (ix1 q)) :
    k0_pay1 (F := Ideal) (View.ld aL rAdj) (View.ld x rXlo) (View.ld aR rAdj) (View.ld x rXhi) (View.ld x (rXat i))
        (View.ld w rW) (View.ld dg rDeg) (View.ld b rB) (ix2 p q)
      = Cert.Gcn.outAt x adj deg w bias r q := by
  refine (Cert.KernelIdeal.PayAt.pay_at _ _ _ _ _ _ _ _ p q).trans ?_
  unfold Cert.Gcn.outAt
  rw [View.ld_unit_zero (S := S512x2048) hz, View.ld_unit_zero (S := S512x2048) hz, View.ld_unit_zero (S := S256x256) hz,
    View.ld_unit_zero (S := S512x1) hz, View.ld_unit_zero (S := S1x256) hz, hd, hb]
  have hs : ∀ j : Fin 256,
      ((∑ k : Fin 2048, aL (ix2 p k) * View.ld x rXlo (ix2 k j)) + (∑ k : Fin 2048, aR (ix2 p k) * View.ld x rXhi (ix2 k j)))
          + View.ld x (rXat i) (ix2 p j)
        = (∑ k : Fin 4096, adj (ix2 r k) * x (ix2 k j)) + x (ix2 r j) := fun j => by
    rw [Cert.Gcn.sum_halves (fun k => adj (ix2 r k) * x (ix2 k j)), ld_at x i p j r hi]
    refine congrArg (· + x (ix2 r j)) ?_
    refine congrArg₂ (· + ·) (Finset.sum_congr rfl fun k _ => ?_) (Finset.sum_congr rfl fun k _ => ?_)
    · rw [hL k, ld_lo]
    · rw [hR k, ld_hi]
  exact congrArg (fun s => Ideal.div s (deg (ix2 r 0)) + bias (ix1 q))
    (Finset.sum_congr rfl fun j _ => congrArg (· * w (ix2 j q)) (hs j))

/-! ## What each point writes back -/

/-- What point `t` writes back is block `t` of the layer's output function of the argument arrays: entry `(p, q)` of the
    stored block is the output at row `512 t + p`, lane `q`, which is where the output's block at `t` puts it. -/
theorem flushed_eq (c : Dev nD) (t : Fin cfg0.N) :
    (dats (F := Ideal) m 0 c).flushed 6 t
      = ((cfg0.win 6).blk t).view.read (Elt Ideal) (Cert.Gcn.out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))) := by
  show (cfg0.win 6).cut (grid0.coords t) ((dats m 0 c).after 6 t) = _
  rw [after0_6]
  unfold outBlk
  rw [View.canon_unit_zero hz]
  refine funext fun (y : S512x256.Idx) => ?_
  obtain ⟨p, q, rfl⟩ : ∃ (p : Fin 512) (q : Fin 256), y = ix2 p q := ⟨y 0, y 1, eq_ix2 y⟩
  rw [View.read_apply]
  obtain ⟨-, -, -, -, -, -, -, -, -, -, -, -, e0, e1, ec, hN⟩ := idx_facts t
  have hr : 512 * t.val + p.val < 4096 := by omega
  have hemb : (((cfg0.win 6).blk t).view.emb (ix2 p q) : S4096x256.Idx) = ix2 (⟨512 * t.val + p.val, hr⟩ : Fin 4096) q :=
    funext fun a => Fin.ext (by
      match a with
      | ⟨0, _⟩ => show win0_6.index t (0 : Fin 2) * 512 + 1 * p.val = 512 * t.val + p.val; omega
      | ⟨1, _⟩ => show win0_6.index t (1 : Fin 2) * 256 + 1 * q.val = q.val; omega)
  rw [hemb]
  refine (pay_out (iblk m c 0 t) (iblk m c 1 t) (iblk m c 2 t) (iblk m c 3 t) (iblk m c 4 t) (iblk m c 5 t) (grid0.coords t)
    (m ((c.tc : Thread nD τ).loc main_arg1)) (m ((c.tc : Thread nD τ).loc main_arg2)) (m ((c.tc : Thread nD τ).loc main_arg4))
    p q ⟨512 * t.val + p.val, hr⟩ ?_ (fun k => blkL_at m c t p k _ _ rfl rfl) (fun k => blkR_at m c t p k _ _ rfl rfl)
    (blkD_at m c t p _ rfl) (blkB_at m c t q)).trans ?_
  · show 512 * t.val + p.val = 512 * ((grid0.coords t) 0).val + p.val
    rw [ec]
  · rw [blkX m c t, blkW m c t]
    rfl

/-! ## The eight blocks cover the 4096 rows -/

/-- An index of the output array is in point `t`'s block iff each coordinate is in the block's range on its axis. -/
theorem mem_blk (t : Fin cfg0.N) (i : S4096x256.Idx) :
    i ∈ ((cfg0.win 6).blk t).view.set
      ↔ ∀ a : Fin 2, win0_6.index t a * S512x256.size a ≤ (i a).val ∧ (i a).val < win0_6.index t a * S512x256.size a + S512x256.size a := by
  show i ∈ ((View.whole main_v1).slice (win0_6.rect t)).set ↔ _
  rw [View.set_slice_whole, Rect.mem_set_unit]
  exact Iff.rfl

/-- Row `r` of the output is written back by point `r / 512`. -/
theorem cover (i : S4096x256.Idx) :
    ∃ t : Fin cfg0.N, (cfg0.win 6).flush t = true ∧ i ∈ ((cfg0.win 6).blk t).view.set := by
  have hi0 : (i 0).val < 4096 := (i 0).isLt
  have hi1 : (i 1).val < 256 := (i 1).isLt
  have hN : cfg0.N = 8 := N_0
  let t : Fin cfg0.N := ⟨(i 0).val / 512, by omega⟩
  obtain ⟨-, -, -, -, -, -, -, -, -, -, -, -, e0, e1, -⟩ := idx_facts t
  have ht : t.val = (i 0).val / 512 := rfl
  refine ⟨t, flush0_6 t, ?_⟩
  rw [mem_blk]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 256 ≤ (i 1).val ∧ (i 1).val < win0_6.index t (1 : Fin 2) * 256 + 256; omega

/-! ## The output array after the run -/

/-- After the last write-back the output array is the layer's output function of the five argument arrays. -/
theorem final_out (c : Dev nD) :
    (dats (F := Ideal) m 0 c).arrAt 6 cfg0.N
      = Cert.Gcn.out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) :=
  (dats (F := Ideal) m 0 c).arrAt_eq_of_cover 6 _ (fun t _ => flushed_eq m c t) cover

end Cert.KernelIdeal.HandValue

end
-- ==== Proof.RefIsSpec.lean ====
import proofs.«163437_g78726750535692_cont_9to1_m_447_9_alg».proof.Proof.Gen.ReferenceIdeal.Read
import proofs.«163437_g78726750535692_cont_9to1_m_447_9_alg».proof.Proof.Spec

noncomputable section
namespace Cert.ReferenceIdeal.RefValue
open Idealize.ShloMosaic Idealize.ShloMosaic.ValueIdx Cert.ReferenceIdeal Cert.ReferenceIdeal.Read

/-- The reference's result array is the layer's output function of the five argument arrays. -/
theorem ref_eq_out (x0 : (⟨S4096x256, .f32⟩ : BufTy).Contents (Elt Ideal)) (x1 : (⟨S4096x4096, .f32⟩ : BufTy).Contents (Elt Ideal))
    (x2 : (⟨S4096x1, .f32⟩ : BufTy).Contents (Elt Ideal)) (x3 : (⟨S256x256, .f32⟩ : BufTy).Contents (Elt Ideal))
    (x4 : (⟨S256, .f32⟩ : BufTy).Contents (Elt Ideal)) :
    val_main_v7 (F := Ideal) x0 x1 x2 x3 x4 = Cert.Gcn.out x0 x1 x2 x3 x4 := by
  funext i
  obtain ⟨r, c, rfl⟩ : ∃ (r : Fin 4096) (c : Fin 256), i = ix2 r c := ⟨i 0, i 1, eq_ix2 i⟩
  -- the second product's operands: row r of the first stage, column c of the weights
  have e2l : ∀ j : Fin 256, lidx_main_v2 (ix2 r c) j = ix2 r j := fun j =>
    funext fun a => Fin.ext (by match a with | ⟨0, _⟩ => rfl | ⟨1, _⟩ => rfl)
  have e2r : ∀ j : Fin 256, ridx_main_v2 (ix2 r c) j = ix2 j c := fun j =>
    funext fun a => Fin.ext (by match a with | ⟨0, _⟩ => rfl | ⟨1, _⟩ => rfl)
  -- the first product's operands: row r of the adjacency, column j of the features
  have e0l : ∀ (j : Fin 256) (k : Fin 4096), lidx_main_v0 (ix2 r j) k = ix2 r k := fun j k =>
    funext fun a => Fin.ext (by match a with | ⟨0, _⟩ => rfl | ⟨1, _⟩ => rfl)
  have e0r : ∀ (j : Fin 256) (k : Fin 4096), ridx_main_v0 (ix2 r j) k = ix2 k j := fun j k =>
    funext fun a => Fin.ext (by match a with | ⟨0, _⟩ => rfl | ⟨1, _⟩ => rfl)
  -- the degree column is read at (r, 0), the bias at c
  have e3 : idx_main_v3 (ix2 r c) = ix2 r (0 : Fin 1) :=
    funext fun a => Fin.ext (by match a with | ⟨0, _⟩ => rfl | ⟨1, _⟩ => rfl)
  have e65 : idx_main_v5 (idx_main_v6 (ix2 r c)) = ix1 c :=
    funext fun a => Fin.ext (by match a with | ⟨0, _⟩ => rfl)
  rw [val_main_v7_apply, val_main_v4_apply, val_main_v2_apply, val_main_v3_apply, val_main_v6_apply, val_main_v5_apply]
  simp only [e2l, e2r, val_main_v1_apply, val_main_v0_apply, e0l, e0r, e3, e65, Ideal.addf_def, Ideal.hostDivf_def]
  rfl

end Cert.ReferenceIdeal.RefValue
end
-- ==== Proof.lean ====
/-
  The certificate of the graph-convolution kernel against its reference.

  Both programs compute, entry by entry on the extended reals,

      out[r, c] = (Σ_j (Σ_k adj[r, k] · x[k, j] + x[r, j]) · w[j, c]) / deg[r, 0] + b[c].

  The reference forms the two matrix products whole. The kernel works strip by strip: at grid point `t` it takes rows
  512·t … 512·t + 511 of the adjacency matrix as two column halves, multiplies each half with the matching row half of the
  feature matrix and adds the two products (the 4096-term sum regrouped as two sums of 2048 terms, which needs only that
  addition is commutative and associative), adds the strip's own feature rows, multiplies with the weights, divides by the
  strip's degrees and adds the bias. The eight strips tile the output array.

  The kernel's two windows on the adjacency matrix read one array, so at the launch that array's share is halved between
  them; each program's frame follows from its run, and the idealization changes no operation.
-/
import proofs.«163437_g78726750535692_cont_9to1_m_447_9_alg».proof.Defs
import proofs.«163437_g78726750535692_cont_9to1_m_447_9_alg».proof.Proof.KRun
import proofs.«163437_g78726750535692_cont_9to1_m_447_9_alg».proof.Proof.KiRun
import proofs.«163437_g78726750535692_cont_9to1_m_447_9_alg».proof.Proof.KiValue
import proofs.«163437_g78726750535692_cont_9to1_m_447_9_alg».proof.Proof.RefIsSpec
import proofs.«163437_g78726750535692_cont_9to1_m_447_9_alg».proof.Proof.Gen.Pre_finite_inputs

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the layer's output function of those arguments. -/
theorem algebraic : Cert.algebraic_KernelIdeal_ReferenceIdeal := by
  intro m ρ m' ρ' _ hagree
  refine ⟨fun c => Cert.Gcn.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.HandValue.final_out m c), (h c).2⟩)
      (Cert.KernelIdeal.Hand.run_out (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v7_eq, Cert.ReferenceIdeal.RefValue.ref_eq_out,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
